-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x4096 : Shape := ⟨3, ![8, 32, 4096]⟩
abbrev S32000x4096 : Shape := ⟨2, ![32000, 4096]⟩
abbrev S_ : Shape := ⟨0, ![]⟩

class Facts : Prop where
  bcast_S_S8x32x4096 : S_.BroadcastsInDim S8x32x4096 (![] : Fin 0 → Fin S8x32x4096.rank)
  reducesTo_S8x32x4096_S_d0_1_2 : S8x32x4096.ReducesTo [0, 1, 2] S_
  h_S_ : 0 < S_.numel
  bcast_S_S32000x4096 : S_.BroadcastsInDim S32000x4096 (![] : Fin 0 → Fin S32000x4096.rank)
  reducesTo_S32000x4096_S_d0_1 : S32000x4096.ReducesTo [0, 1] S_

variable [Facts]

def fn {F : FTy → Type} [FloatOps F] (main_arg0 : FVec F S8x32x4096 .f32) (main_arg1 : FVec F S32000x4096 .f32) : IVec S_ 1 :=
  let main_v0 : FVec F S8x32x4096 .f32 := Host.absf main_arg0
  let main_cst : FVec F S_ .f32 := constant S_ .f32 0x7F800000#32
  let main_v1 : FVec F S8x32x4096 .f32 := broadcastInDim S8x32x4096 ![] bcast_S_S8x32x4096 main_cst
  let main_v2 : IVec S8x32x4096 1 := cmpf .olt main_v0 main_v1
  let main_c : IVec S_ 1 := constantI S_ 1 1#1
  let main_v3 : IVec S_ 1 := (fun x v => Host.reduce IntOp.andi x v reducesTo_S8x32x4096_S_d0_1_2 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  main_v8
-- ==== Kernel.lean ====
abbrev S8x32x4096 : Shape := ⟨3, ![8, 32, 4096]⟩
abbrev S32000x4096 : Shape := ⟨2, ![32000, 4096]⟩
abbrev S256x4096 : Shape := ⟨2, ![256, 4096]⟩
abbrev S256x32000 : Shape := ⟨2, ![256, 32000]⟩
abbrev S640x4096 : Shape := ⟨2, ![640, 4096]⟩
abbrev S256x640 : Shape := ⟨2, ![256, 640]⟩
abbrev S256x1024 : Shape := ⟨2, ![256, 1024]⟩
abbrev S640x1024 : Shape := ⟨2, ![640, 1024]⟩
abbrev S8x32x32000 : Shape := ⟨3, ![8, 32, 32000]⟩

abbrev nBuf : Space → Nat
  | .hbm => 6
  | .vmem => 5
  | .smem => 0
  | _ => 0

abbrev bufTy : (tb : Table) → Fin (tcTables nBuf tb) → BufTy
  | .hbm, ⟨0, _⟩ => ⟨S8x32x4096, .f32⟩
  | .hbm, ⟨1, _⟩ => ⟨S32000x4096, .f32⟩
  | .hbm, ⟨2, _⟩ => ⟨S256x4096, .f32⟩
  | .hbm, ⟨3, _⟩ => ⟨S256x4096, .bf16⟩
  | .hbm, ⟨4, _⟩ => ⟨S256x32000, .f32⟩
  | .hbm, ⟨5, _⟩ => ⟨S8x32x32000, .f32⟩
  | .local _ .vmem, ⟨0, _⟩ => ⟨S256x4096, .bf16⟩
  | .local _ .vmem, ⟨1, _⟩ => ⟨S640x4096, .f32⟩
  | .local _ .vmem, ⟨2, _⟩ => ⟨S640x4096, .f32⟩
  | .local _ .vmem, ⟨3, _⟩ => ⟨S256x640, .f32⟩
  | .local _ .vmem, ⟨4, _⟩ => ⟨S256x640, .f32⟩
  | _, _ => ⟨S8x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x32x4096_S256x4096 : S8x32x4096.ShapeCasts S256x4096
  bitsLt_bf16_f32 : FTy.bits .bf16 < FTy.bits .f32
  inb_S256x4096_S256x1024_0_0 : ∀ a, (![0, 0] : Fin 2 → Nat) a + S256x1024.size a ≤ S256x4096.size a
  h_S256x1024 : 0 < S256x1024.numel
  shapeCasts_S256x1024_S256x1024 : S256x1024.ShapeCasts S256x1024
  inb_S640x4096_S640x1024_0_0 : ∀ a, (![0, 0] : Fin 2 → Nat) a + S640x1024.size a ≤ S640x4096.size a
  h_S640x1024 : 0 < S640x1024.numel
  inb_S256x4096_S256x1024_0_1024 : ∀ a, (![0, 1024] : Fin 2 → Nat) a + S256x1024.size a ≤ S256x4096.size a
  inb_S640x4096_S640x1024_0_1024 : ∀ a, (![0, 1024] : Fin 2 → Nat) a + S640x1024.size a ≤ S640x4096.size a
  inb_S256x4096_S256x1024_0_2048 : ∀ a, (![0, 2048] : Fin 2 → Nat) a + S256x1024.size a ≤ S256x4096.size a
  inb_S640x4096_S640x1024_0_2048 : ∀ a, (![0, 2048] : Fin 2 → Nat) a + S640x1024.size a ≤ S640x4096.size a
  inb_S256x4096_S256x1024_0_3072 : ∀ a, (![0, 3072] : Fin 2 → Nat) a + S256x1024.size a ≤ S256x4096.size a
  inb_S640x4096_S640x1024_0_3072 : ∀ a, (![0, 3072] : Fin 2 → Nat) a + S640x1024.size a ≤ S640x4096.size a
  inb_S256x640_S256x640_0_0 : ∀ a, (![0, 0] : Fin 2 → Nat) a + S256x640.size a ≤ S256x640.size a
  h_S256x640 : 0 < S256x640.numel
  shapeCasts_S256x32000_S8x32x32000 : S256x32000.ShapeCasts S8x32x32000
  dot_S256x1024_S640x1024_S256x640_1_1_0_0_n_n_wf : DotDims.WF S256x1024 S640x1024 S256x640 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x4096.size a ≤ S32000x4096.size a
  hwx0_1 : ∀ i : grid0.Coords, EltTy.bits .f32 = 32 ∨ (Rect.block (s := S32000x4096) S640x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x640.size a ≤ S256x32000.size a
  hwx0_2 : ∀ i : grid0.Coords, EltTy.bits .f32 = 32 ∨ (Rect.block (s := S256x32000) S256x640.size (cc0_transform_2 i) (hinb0_2 i)).WholeWords (EltTy.packing .f32)

variable [Facts₀]

def dot_S256x1024_S640x1024_S256x640_1_1_0_0_n_n : DotDims S256x1024 S640x1024 S256x640 where
  lhsContracting := [1]
  rhsContracting := [1]
  lhsNonContracting := [0]
  rhsNonContracting := [0]
  lhsBatch := []
  rhsBatch := []
  wf := dot_S256x1024_S640x1024_S256x640_1_1_0_0_n_n_wf

abbrev win0_0 : Pipeline.Window sig grid0 :=
  Pipeline.Window.ofSpec (Memref.whole main_v1) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x4096 : Shape := ⟨3, ![8, 32, 4096]⟩
abbrev S32000x4096 : Shape := ⟨2, ![32000, 4096]⟩
abbrev S256x4096 : Shape := ⟨2, ![256, 4096]⟩
abbrev S256x32000 : Shape := ⟨2, ![256, 32000]⟩
abbrev S8x32x32000 : Shape := ⟨3, ![8, 32, 32000]⟩

abbrev nBuf : Space → Nat
  | .hbm => 5
  | .vmem => 0
  | .smem => 0
  | _ => 0

abbrev bufTy : (tb : Table) → Fin (tcTables nBuf tb) → BufTy
  | .hbm, ⟨0, _⟩ => ⟨S8x32x4096, .f32⟩
  | .hbm, ⟨1, _⟩ => ⟨S32000x4096, .f32⟩
  | .hbm, ⟨2, _⟩ => ⟨S256x4096, .f32⟩
  | .hbm, ⟨3, _⟩ => ⟨S256x32000, .f32⟩
  | .hbm, ⟨4, _⟩ => ⟨S8x32x32000, .f32⟩
  | _, _ => ⟨S8x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S8x32x4096_S256x4096 : S8x32x4096.ShapeCasts S256x4096
  shapeCasts_S256x32000_S8x32x32000 : S256x32000.ShapeCasts S8x32x32000
  dot_S256x4096_S32000x4096_S256x32000_1_1_0_0_n_n_wf : DotDims.WF S256x4096 S32000x4096 S256x32000 [1] [1] [0] [0] [] []

variable [Facts₀]

def dot_S256x4096_S32000x4096_S256x32000_1_1_0_0_n_n : DotDims S256x4096 S32000x4096 S256x32000 where
  lhsContracting := [1]
  rhsContracting := [1]
  lhsNonContracting := [0]
  rhsNonContracting := [0]
  lhsBatch := []
  rhsBatch := []
  wf := dot_S256x4096_S32000x4096_S256x32000_1_1_0_0_n_n_wf

class Facts : Prop extends Facts₀ where

variable [Facts]
-- ==== Proof.RowDots.lean ====
/-
  The specification, and the one law of sums the proof needs.

  Every entry of the result is the dot product of a row of activations with a row of weights,
  out[r, n] = Σ_{k < 4096} a[r, k] · w[n, k], taken on the extended reals. The kernel does not take that sum in one
  go: it cuts the 4096 terms into four consecutive stretches of 1024, sums each stretch on the matrix unit, and adds
  the stretch sums one after the other to a running total that starts at zero. `sum_four_stretches` says that this
  running total is the whole sum. It uses only that addition is associative and that 0 + s = s, both of which hold
  for +∞ and -∞ as well, so no finiteness of the inputs is used anywhere in this certificate.
-/
import Mathlib.Algebra.BigOperators.Fin
import Mathlib.Algebra.BigOperators.Group.Finset.Basic
import Idealize.ShloMosaic.PureOps.Ideal
import Idealize.ShloMosaic.Lib.ValueIdx

noncomputable section

open scoped BigOperators

namespace Cert.RowDots

open Idealize.ShloMosaic Idealize.ShloMosaic.ValueIdx

/-- Row `r` of the activations against row `n` of the weights: the index (r, k) of the 256 × 4096 array. -/
abbrev actIdx (i : (⟨2, ![256, 32000]⟩ : Shape).Idx) (k : Fin 4096) : (⟨2, ![256, 4096]⟩ : Shape).Idx :=
  ix2 (n0 := 256) (n1 := 4096) ⟨(i 0).val, (i 0).isLt⟩ k
/-- … and the index (n, k) of the 32000 × 4096 array. -/
abbrev wgtIdx (i : (⟨2, ![256, 32000]⟩ : Shape).Idx) (k : Fin 4096) : (⟨2, ![32000, 4096]⟩ : Shape).Idx :=
  ix2 (n0 := 32000) (n1 := 4096) ⟨(i 1).val, (i 1).isLt⟩ k

/-- THE RESULT as one function of the two arrays: out[r, n] = Σ_k a[r, k] · w[n, k]. -/
def rowDots (a : (⟨2, ![256, 4096]⟩ : Shape).Idx → EReal) (w : (⟨2, ![32000, 4096]⟩ : Shape).Idx → EReal) :
    (⟨2, ![256, 32000]⟩ : Shape).Idx → EReal :=
  fun i => ∑ k : Fin 4096, a (actIdx i k) * w (wgtIdx i k)

/-- A sum of 4096 terms is the running total of its four consecutive stretches of 1024 terms, started at zero. -/
theorem sum_four_stretches {M : Type*} [AddCommMonoid M] (f : ℕ → M) :
    ∑ k : Fin 4096, f k.val
      = 0 + ∑ k : Fin 1024, f k.val + ∑ k : Fin 1024, f (1024 + k.val) + ∑ k : Fin 1024, f (2048 + k.val)
          + ∑ k : Fin 1024, f (3072 + k.val) := by
  have toRange : ∀ (g : ℕ → M) (n : ℕ), ∑ k : Fin n, g k.val = ∑ k ∈ Finset.range n, g k :=
    fun g n => (Finset.sum_range g).symm
  rw [toRange f 4096, toRange f 1024, toRange (fun k => f (1024 + k)) 1024, toRange (fun k => f (2048 + k)) 1024,
    toRange (fun k => f (3072 + k)) 1024, zero_add]
  rw [show ∑ k ∈ Finset.range 4096, f k = ∑ k ∈ Finset.range 3072, f k + ∑ k ∈ Finset.range 1024, f (3072 + k) from
      Finset.sum_range_add f 3072 1024,
    show ∑ k ∈ Finset.range 3072, f k = ∑ k ∈ Finset.range 2048, f k + ∑ k ∈ Finset.range 1024, f (2048 + k) from
      Finset.sum_range_add f 2048 1024,
    show ∑ k ∈ Finset.range 2048, f k = ∑ k ∈ Finset.range 1024, f k + ∑ k ∈ Finset.range 1024, f (1024 + k) from
      Finset.sum_range_add f 1024 1024]

/-- The same law over terms indexed by `Fin 4096`: stretch number s (s = 0, 1, 2, 3) holds the terms 1024·s + k,
    k < 1024. Each split is the sum over `Fin (a + 1024)` as the sum over `Fin a` plus the sum over `Fin 1024` shifted
    by `a`. -/
theorem sum_four_stretches_fin {M : Type*} [AddCommMonoid M] (f : Fin 4096 → M) :
    ∑ k, f k
      = 0 + ∑ k : Fin 1024, f ⟨k.val, by have := k.isLt; omega⟩
          + ∑ k : Fin 1024, f ⟨1024 + k.val, by have := k.isLt; omega⟩
          + ∑ k : Fin 1024, f ⟨2048 + k.val, by have := k.isLt; omega⟩
          + ∑ k : Fin 1024, f ⟨3072 + k.val, by have := k.isLt; omega⟩ := by
  rw [zero_add]
  have s3 : ∑ k, f k = ∑ k : Fin 3072, f ⟨k.val, by have := k.isLt; omega⟩
      + ∑ k : Fin 1024, f ⟨3072 + k.val, by have := k.isLt; omega⟩ :=
    Fin.sum_univ_add (a := 3072) (b := 1024) f
  have s2 : ∑ k : Fin 3072, f ⟨k.val, by have := k.isLt; omega⟩
      = ∑ k : Fin 2048, f ⟨k.val, by have := k.isLt; omega⟩
        + ∑ k : Fin 1024, f ⟨2048 + k.val, by have := k.isLt; omega⟩ :=
    Fin.sum_univ_add (a := 2048) (b := 1024) (fun k : Fin 3072 => f ⟨k.val, by have := k.isLt; omega⟩)
  have s1 : ∑ k : Fin 2048, f ⟨k.val, by have := k.isLt; omega⟩
      = ∑ k : Fin 1024, f ⟨k.val, by have := k.isLt; omega⟩
        + ∑ k : Fin 1024, f ⟨1024 + k.val, by have := k.isLt; omega⟩ :=
    Fin.sum_univ_add (a := 1024) (b := 1024) (fun k : Fin 2048 => f ⟨k.val, by have := k.isLt; omega⟩)
  rw [s3, s2, s1]

end Cert.RowDots

end
-- ==== Proof.TileDots.lean ====
/-
  What one grid step writes, read at one entry.

  At a grid step the body holds the whole 256 × 4096 block of activations and a 640 × 4096 block of weights (640
  consecutive rows of the weight array). It reads both in four column stretches of 1024, multiplies each pair of
  stretches on the matrix unit into a zero accumulator — at the ideal values the entry (p, q) of such a product is
  Σ_{k < 1024} x[p, k] · w[q, k], the narrowing of the weights to the shorter float format being the identity —, and
  adds the four products to a running total that starts at the zero splat. So the entry (p, q) of what it stores is the
  running total of the four stretch sums, which `sum_four_stretches` turns into the one sum over all 4096 columns.
-/
import proofs.«411516_j44598940402132_3_alg».proof.Proof.Gen.KernelIdeal.Frame
import proofs.«411516_j44598940402132_3_alg».proof.Proof.RowDots
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The matrix unit's operand indices: output entry (p, q) and column k meet x[p, k] and w[q, k] -/

theorem lhs_axis0 (i : S256x640.Idx) (q : dot_S256x1024_S640x1024_S256x640_1_1_0_0_n_n.contr.Idx) :
    (dot_S256x1024_S640x1024_S256x640_1_1_0_0_n_n.lhsIdx i q 0).val = (i 0).val := by
  unfold DotDims.lhsIdx
  rw [dif_neg (show ¬(0 : Fin S256x1024.rank) ∈ dot_S256x1024_S640x1024_S256x640_1_1_0_0_n_n.lhsBatch by decide), dif_pos (show (0 : Fin S256x1024.rank) ∈ dot_S256x1024_S640x1024_S256x640_1_1_0_0_n_n.lhsNonContracting by decide)]
  rfl
theorem lhs_axis1 (i : S256x640.Idx) (q : dot_S256x1024_S640x1024_S256x640_1_1_0_0_n_n.contr.Idx) :
    (dot_S256x1024_S640x1024_S256x640_1_1_0_0_n_n.lhsIdx i q 1).val = (q ⟨0, by decide⟩).val :=
  dot_S256x1024_S640x1024_S256x640_1_1_0_0_n_n.lhsIdx_val_of_single rfl i q
theorem rhs_axis0 (i : S256x640.Idx) (q : dot_S256x1024_S640x1024_S256x640_1_1_0_0_n_n.contr.Idx) :
    (dot_S256x1024_S640x1024_S256x640_1_1_0_0_n_n.rhsIdx i q 0).val = (i 1).val := by
  unfold DotDims.rhsIdx
  rw [dif_neg (show ¬(0 : Fin S640x1024.rank) ∈ dot_S256x1024_S640x1024_S256x640_1_1_0_0_n_n.rhsBatch by decide), dif_pos (show (0 : Fin S640x1024.rank) ∈ dot_S256x1024_S640x1024_S256x640_1_1_0_0_n_n.rhsNonContracting by decide)]
  rfl
theorem rhs_axis1 (i : S256x640.Idx) (q : dot_S256x1024_S640x1024_S256x640_1_1_0_0_n_n.contr.Idx) :
    (dot_S256x1024_S640x1024_S256x640_1_1_0_0_n_n.rhsIdx i q 1).val = (q ⟨0, by decide⟩).val :=
  dot_S256x1024_S640x1024_S256x640_1_1_0_0_n_n.rhsIdx_val_of_single rfl i q

/-- Entry (p, k) of a 256 × 1024 stretch of activations, and entry (q, k) of a 640 × 1024 stretch of weights. -/
abbrev xAt (i : S256x640.Idx) (k : Fin 1024) : S256x1024.Idx := ix2 (n0 := 256) (n1 := 1024) ⟨(i 0).val, (i 0).isLt⟩ k
abbrev wAt (i : S256x640.Idx) (k : Fin 1024) : S640x1024.Idx := ix2 (n0 := 640) (n1 := 1024) ⟨(i 1).val, (i 1).isLt⟩ k

/-- ONE STRETCH: the product of a stretch of activations with a stretch of weights into the zero accumulator, at
    entry (p, q), is Σ_{k < 1024} x[p, k] · w[q, k]. -/
theorem stretch_apply (xa : Vec Ideal S256x1024 .bf16) (wa : Vec Ideal S640x1024 .f32) (i : S256x640.Idx) :
    (matmul (F := Ideal) dot_S256x1024_S640x1024_S256x640_1_1_0_0_n_n none
        (shapeCast S256x1024 xa shapeCasts_S256x1024_S256x1024 : FVec Ideal S256x1024 .bf16)
        (truncf .bf16 wa bitsLt_bf16_f32 : FVec Ideal S640x1024 .bf16) (constant S256x640 .f32 0x00000000#32) i : EReal)
      = ∑ k : Fin 1024, (xa (xAt i k) : EReal) * (wa (wAt i k) : EReal) := by
  simp only [matmul]
  rw [Ideal.matmul_constant_zero_apply, ← Equiv.sum_comp (contrEquiv1 dot_S256x1024_S640x1024_S256x640_1_1_0_0_n_n 1024 rfl rfl).symm]
  refine Finset.sum_congr rfl fun k _ => ?_
  have hk := contrEquiv1_symm_val dot_S256x1024_S640x1024_S256x640_1_1_0_0_n_n 1024 rfl rfl k
  have el : dot_S256x1024_S640x1024_S256x640_1_1_0_0_n_n.lhsIdx i ((contrEquiv1 dot_S256x1024_S640x1024_S256x640_1_1_0_0_n_n 1024 rfl rfl).symm k) = xAt i k := funext fun a => Fin.ext (by
    match a with
    | ⟨0, _⟩ => exact lhs_axis0 _ _
    | ⟨1, _⟩ => exact (lhs_axis1 _ _).trans hk)
  have er : dot_S256x1024_S640x1024_S256x640_1_1_0_0_n_n.rhsIdx i ((contrEquiv1 dot_S256x1024_S640x1024_S256x640_1_1_0_0_n_n 1024 rfl rfl).symm k) = wAt i k := funext fun a => Fin.ext (by
    match a with
    | ⟨0, _⟩ => exact rhs_axis0 _ _
    | ⟨1, _⟩ => exact (rhs_axis1 _ _).trans hk)
  rw [el, er, shapeCast_self]
  rfl

/-! ## The four stretches of the two blocks -/

/-- Entry (p, k) of the whole 256 × 4096 block of activations, and entry (q, k) of the whole 640 × 4096 block of weights. -/
abbrev xRow (i : S256x640.Idx) (k : Fin 4096) : S256x4096.Idx := ix2 (n0 := 256) (n1 := 4096) ⟨(i 0).val, (i 0).isLt⟩ k
abbrev wRow (i : S256x640.Idx) (k : Fin 4096) : S640x4096.Idx := ix2 (n0 := 640) (n1 := 4096) ⟨(i 1).val, (i 1).isLt⟩ k

/-- Column `k` of the stretch of activations that starts at column `off` is column `off + k` of the block. -/
theorem x_stretch (x : Vec Ideal S256x4096 .bf16) (off : ℕ) (inb : ∀ a, (![0, off] : Fin 2 → ℕ) a + S256x1024.size a ≤ S256x4096.size a)
    (i : S256x640.Idx) (k : Fin 1024) (col : Fin 4096) (hcol : col.val = off + k.val) :
    View.ld x (Rect.unit (s := S256x4096) ![0, off] S256x1024.size inb) (xAt i k) = x (xRow i col) :=
  congrArg x (funext fun a => Fin.ext (by
    match a with
    | ⟨0, _⟩ => show 0 + 1 * (i 0).val = (i 0).val; omega
    | ⟨1, _⟩ => show off + 1 * k.val = col.val; omega))

/-- The same for the stretch of weights. -/
theorem w_stretch (w : Vec Ideal S640x4096 .f32) (off : ℕ) (inb : ∀ a, (![0, off] : Fin 2 → ℕ) a + S640x1024.size a ≤ S640x4096.size a)
    (i : S256x640.Idx) (k : Fin 1024) (col : Fin 4096) (hcol : col.val = off + k.val) :
    View.ld w (Rect.unit (s := S640x4096) ![0, off] S640x1024.size inb) (wAt i k) = w (wRow i col) :=
  congrArg w (funext fun a => Fin.ext (by
    match a with
    | ⟨0, _⟩ => show 0 + 1 * (i 1).val = (i 1).val; omega
    | ⟨1, _⟩ => show off + 1 * k.val = col.val; omega))

/-- So the sum over a pair of stretches that start at column `off` is the sum of the blocks' products over the columns
    `off + k`, k < 1024. -/
theorem stretch_sum (x : Vec Ideal S256x4096 .bf16) (w : Vec Ideal S640x4096 .f32) (off : ℕ)
    (inbx : ∀ a, (![0, off] : Fin 2 → ℕ) a + S256x1024.size a ≤ S256x4096.size a)
    (inbw : ∀ a, (![0, off] : Fin 2 → ℕ) a + S640x1024.size a ≤ S640x4096.size a)
    (i : S256x640.Idx) (col : Fin 1024 → Fin 4096) (hcol : ∀ k, (col k).val = off + k.val) :
    ∑ k : Fin 1024, (View.ld x (Rect.unit (s := S256x4096) ![0, off] S256x1024.size inbx) (xAt i k) : EReal)
        * (View.ld w (Rect.unit (s := S640x4096) ![0, off] S640x1024.size inbw) (wAt i k) : EReal)
      = ∑ k : Fin 1024, (x (xRow i (col k)) : EReal) * (w (wRow i (col k)) : EReal) :=
  Finset.sum_congr rfl fun k _ => by
    rw [x_stretch x off inbx i k (col k) (hcol k), w_stretch w off inbw i k (col k) (hcol k)]

/-- THE STEP'S RESULT at entry (p, q), from the two whole blocks: Σ_{k < 4096} x[p, k] · w[q, k]. -/
theorem tile_apply (x : Vec Ideal S256x4096 .bf16) (w : Vec Ideal S640x4096 .f32) (i : S256x640.Idx) :
    (k0_pay1 (F := Ideal) (View.ld x r0_0) (View.ld w r0_1) (View.ld x r0_2) (View.ld w r0_3) (View.ld x r0_4) (View.ld w r0_5)
        (View.ld x r0_6) (View.ld w r0_7) i : EReal)
      = ∑ k : Fin 4096, (x (xRow i k) : EReal) * (w (wRow i k) : EReal) := by
  unfold k0_pay1
  rw [addf_apply, addf_apply, addf_apply, addf_apply, broadcast_apply, stretch_apply, stretch_apply, stretch_apply, stretch_apply]
  rw [Cert.RowDots.sum_four_stretches_fin (fun k => (x (xRow i k) : EReal) * (w (wRow i k) : EReal))]
  rw [stretch_sum x w 0 _ _ i (fun k => ⟨k.val, by have := k.isLt; omega⟩) (fun k => (Nat.zero_add _).symm),
    stretch_sum x w 1024 _ _ i (fun k => ⟨1024 + k.val, by have := k.isLt; omega⟩) (fun k => rfl),
    stretch_sum x w 2048 _ _ i (fun k => ⟨2048 + k.val, by have := k.isLt; omega⟩) (fun k => rfl),
    stretch_sum x w 3072 _ _ i (fun k => ⟨3072 + k.val, by have := k.isLt; omega⟩) (fun k => rfl)]
  show (Ideal.ofBits .f32 0x00000000#32 : EReal) + _ + _ + _ + _ = _
  rw [Ideal.ofBits_zero_f32]

end Cert.KernelIdeal.Tile

end
-- ==== Proof.TileBlocks.lean ====
/-
  From the grid steps' blocks to the whole array.

  The pallas_call walks a grid of 50 steps. Step t keeps the whole 256 × 4096 array of activations in front of it
  (block index (0, 0) at every step), fetches rows 640·t … 640·t + 639 of the weight array (block index (t, 0)), and
  writes back columns 640·t … 640·t + 639 of the 256 × 32000 result (block index (0, t)). By `tile_apply` the entry
  (p, q) of what step t writes is Σ_k x[p, k] · w[640·t + q, k], that is, the entry (p, 640·t + q) of `rowDots` of the
  two arrays: step t writes block t of ONE whole-array function. The 50 column blocks cover every column (column n
  lies in block n / 640), so after the last step the result array IS `rowDots` of the two arrays as the region found
  them.
-/
import proofs.«411516_j44598940402132_3_alg».proof.Proof.Gen.KernelIdeal.Frame
import proofs.«411516_j44598940402132_3_alg».proof.Proof.RowDots
import proofs.«411516_j44598940402132_3_alg».proof.Proof.TileDots
import Idealize.ShloMosaic.Lib.Pipeline.Value

set_option maxRecDepth 16384

noncomputable section

open scoped BigOperators

namespace Cert.KernelIdeal.Blocks

open Cert.KernelIdeal Cert.KernelIdeal.Gen Cert.RowDots Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps, decided over the 50 steps: the activations' block never moves, the weights' block is row
    block t, the result's block is column block t. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The two arrays as the region finds them, at their literal types: the [256, 4096] activations and the [32000, 4096]
    weights, as extended reals. -/
abbrev acts (c : Dev nD) : S256x4096.Idx → EReal := V m c main_v1
abbrev wgts (c : Dev nD) : S32000x4096.Idx → EReal := V m c main_arg1

/-- WHAT STEP t WRITES BACK is block t of `rowDots` of the two arrays as the region finds them. -/
theorem flushed_eq (c : Dev nD) (t : Fin cfg0.N) :
    (dats m 0 c).flushed 2 t
      = ((cfg0.win 2).blk t).view.read (Elt Ideal) (rowDots (acts m c) (wgts m c)) := by
  show (cfg0.win 2).cut (grid0.coords t) ((dats m 0 c).after 2 t) = _
  rw [after0_2]
  unfold out0_2
  rw [View.canon_unit_zero zero_offsets]
  obtain ⟨e00, e01, e10, e11, e20, e21⟩ := block_indices t
  funext j
  refine (Tile.tile_apply (iblk m c 0 t) (iblk m c 1 t) j).trans ?_
  show ∑ k : Fin 4096, acts m c (((cfg0.win 0).blk t).view.emb (Tile.xRow j k)) * wgts m c (((cfg0.win 1).blk t).view.emb (Tile.wRow j k))
      = ∑ k : Fin 4096, acts m c (actIdx (((cfg0.win 2).blk t).view.emb j) k) * wgts m c (wgtIdx (((cfg0.win 2).blk t).view.emb j) k)
  refine Finset.sum_congr rfl fun k _ => ?_
  have hx : ((cfg0.win 0).blk t).view.emb (Tile.xRow j k) = actIdx (((cfg0.win 2).blk t).view.emb j) k := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * k.val = k.val; omega
  have hw : ((cfg0.win 1).blk t).view.emb (Tile.wRow j k) = wgtIdx (((cfg0.win 2).blk t).view.emb j) k := by
    funext a; apply Fin.ext
    match a with
    | ⟨0, _⟩ => show win0_1.index t (0 : Fin 2) * 640 + 1 * (j 1).val = win0_2.index t (1 : Fin 2) * 640 + 1 * (j 1).val; omega
    | ⟨1, _⟩ => show win0_1.index t (1 : Fin 2) * 4096 + 1 * k.val = k.val; omega
  rw [hx, hw]

/-- An index of the result array is in step t's block iff each coordinate is in the block's range on its axis. -/
theorem mem_block (t : Fin cfg0.N) (i : S256x32000.Idx) :
    i ∈ ((cfg0.win 2).blk t).view.set ↔ ∀ a : Fin 2, win0_2.index t a * S256x640.size a ≤ (i a).val ∧ (i a).val < win0_2.index t a * S256x640.size a + S256x640.size a := by
  show i ∈ ((View.whole main_v2).slice (win0_2.rect t)).set ↔ _
  rw [View.set_slice_whole, Rect.mem_set_unit]
  exact Iff.rfl

/-- Every index of the result array lies in some step's block: column n in block n / 640. -/
theorem covered (i : S256x32000.Idx) :
    ∃ t : Fin cfg0.N, (cfg0.win 2).flush t = true ∧ i ∈ ((cfg0.win 2).blk t).view.set := by
  have hi0 : (i 0).val < 256 := (i 0).isLt
  have hi1 : (i 1).val < 32000 := (i 1).isLt
  obtain ⟨t, ht⟩ : ∃ t : Fin cfg0.N, t.val = (i 1).val / 640 :=
    ⟨⟨(i 1).val / 640, Nat.lt_of_lt_of_eq (by omega : (i 1).val / 640 < 50) N_0.symm⟩, rfl⟩
  obtain ⟨-, -, -, -, e20, e21⟩ := block_indices t
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 640 ≤ (i 1).val ∧ (i 1).val < win0_2.index t (1 : Fin 2) * 640 + 640; omega

/-- THE RESULT ARRAY after the last step: `rowDots` of the two arrays as the region found them. -/
theorem final (c : Dev nD) : (dats m 0 c).arrAt 2 cfg0.N = rowDots (acts m c) (wgts m c) :=
  (dats m 0 c).arrAt_eq_of_cover 2 _ (fun t _ => flushed_eq m c t) covered

end Cert.KernelIdeal.Blocks

end
-- ==== Proof.KernelRun.lean ====
/-
  The kernel program's run, read as a value.

  @main reshapes the activations [8, 32, 4096] to [256, 4096] (row b·32 + s is position s of batch b), narrows them to
  the shorter float format — the identity at the ideal values —, runs the grid (`Blocks.final`: the [256, 32000] array
  ends at `rowDots` of what the region found), and reshapes the result to [8, 32, 32000]. So the result buffer ends at
  the reshape of `rowDots` of the reshaped activations and the weights, and the two arguments end as they were launched.
-/
import proofs.«411516_j44598940402132_3_alg».proof.Proof.Gen.KernelIdeal.Frame
import proofs.«411516_j44598940402132_3_alg».proof.Proof.RowDots
import proofs.«411516_j44598940402132_3_alg».proof.Proof.TileBlocks
import Idealize.ShloMosaic.Lib.Pipeline.Value
import Idealize.ShloMosaic.Lib.StableHlo.Run

noncomputable section

namespace Cert.KernelIdeal.Whole

open Cert.KernelIdeal Cert.KernelIdeal.Gen Cert.RowDots Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result as a function of the two argument arrays: reshape, all row-by-row dot products, reshape. -/
def result (x : Vec Ideal S8x32x4096 .f32) (w : Vec Ideal S32000x4096 .f32) : Vec Ideal S8x32x32000 .f32 :=
  shapeCast S8x32x32000 (rowDots (shapeCast S256x4096 x shapeCasts_S8x32x4096_S256x4096) w) shapeCasts_S256x32000_S8x32x32000

/-- The activations as the region finds them: the first argument reshaped (the narrowing is the identity). -/
theorem acts_eq (c : Dev nD) :
    Blocks.acts m c = shapeCast S256x4096 (m ((c : Thread nD τ).loc main_arg0)) shapeCasts_S8x32x4096_S256x4096 := by
  show StableHlo.after hostOps0 (fun b => m (c, b)) (Proc.devRef .tc main_v1) = _
  after_results
  rfl

/-- The weights as the region finds them: the second argument, which no line before the region writes. -/
theorem wgts_eq (c : Dev nD) : Blocks.wgts m c = m ((c : Thread nD τ).loc main_arg1) := V_main_arg1 m c

/-- The result buffer after @main's last line: the reshape of the region's result array. -/
theorem tail_result (c : Dev nD) :
    Pipeline.afterTail₀ cfgs (dats m) 0 (V0 m) [hostOps1] c main_v3
      = result (m ((c : Thread nD τ).loc main_arg0)) (m ((c : Thread nD τ).loc main_arg1)) := by
  unfold Pipeline.afterTail₀
  show StableHlo.after hostOps1 _ (Proc.devRef .tc main_v3) = _
  after_results
  rw [(Pipeline.withArrays_arr spec0 launch0.win.arr_inj c _ _ 2).trans (Blocks.final m c), acts_eq, wgts_eq]
  rfl

/-- THE RUN: every weakly fair execution of @main terminates with the result buffer at `result` of the arguments, and
    the arguments unchanged. -/
theorem run : θ_run defs (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.ReferenceValue.lean ====
/-
  The reference's result is the same function of the arguments.

  The reference reshapes the activations to [256, 4096], contracts axis 1 of the activations with axis 1 of the weights
  (one `dot_general`), and reshapes to [8, 32, 32000]. At the ideal values the `dot_general`'s entry (r, n) is
  Σ_{k < 4096} a[r, k] · w[n, k], which is `rowDots`; the two reshapes are the kernel program's own.
-/
import proofs.«411516_j44598940402132_3_alg».proof.Proof.Gen.ReferenceIdeal.Read
import proofs.«411516_j44598940402132_3_alg».proof.Proof.RowDots
import proofs.«411516_j44598940402132_3_alg».proof.Proof.KernelRun

noncomputable section

open scoped BigOperators

namespace Cert.ReferenceIdeal.RefValue

open Cert.ReferenceIdeal Cert.ReferenceIdeal.Gen Cert.RowDots Idealize.ShloMosaic Idealize.ShloMosaic.ValueIdx

/-- The `dot_general` stage is `rowDots` of the reshaped activations and the weights. -/
theorem dots_eq (x : (⟨S8x32x4096, .f32⟩ : BufTy).Contents (Elt Ideal)) (w : (⟨S32000x4096, .f32⟩ : BufTy).Contents (Elt Ideal)) :
    Read.val_main_v1 (F := Ideal) x w = rowDots (Read.val_main_v0 (F := Ideal) x) w := by
  funext i
  have hl : ∀ k, Read.lidx_main_v1 i k = actIdx i k := fun k =>
    funext fun a => Fin.ext (by match a with | ⟨0, _⟩ => rfl | ⟨1, _⟩ => rfl)
  have hr : ∀ k, Read.ridx_main_v1 i k = wgtIdx i k := fun k =>
    funext fun a => Fin.ext (by match a with | ⟨0, _⟩ => rfl | ⟨1, _⟩ => rfl)
  rw [Read.val_main_v1_apply]
  exact Finset.sum_congr rfl fun k _ => by rw [hl k, hr k]

/-- THE REFERENCE'S RESULT TERM is the kernel program's `result` of the same arguments. -/
theorem result_eq (x : (⟨S8x32x4096, .f32⟩ : BufTy).Contents (Elt Ideal)) (w : (⟨S32000x4096, .f32⟩ : BufTy).Contents (Elt Ideal)) :
    (shapeCast S8x32x32000 (Host.dotGeneral (F := Ideal) (φ₁ := .f32) (φ₂ := .f32) dot_S256x4096_S32000x4096_S256x32000_1_1_0_0_n_n none
        (shapeCast S256x4096 x shapeCasts_S8x32x4096_S256x4096) w) shapeCasts_S256x32000_S8x32x32000
        : (⟨S8x32x32000, .f32⟩ : BufTy).Contents (Elt Ideal))
      = Cert.KernelIdeal.Whole.result x w := by
  rw [Read.val_main_v2_eq]
  unfold Read.val_main_v2
  rw [dots_eq]
  rfl

end Cert.ReferenceIdeal.RefValue

end
-- ==== Proof.lean ====
/-
  The certificate of a fixed-shape linear layer without bias, y = x · Wᵀ over x : [8, 32, 4096] and W : [32000, 4096].

  The kernel flattens the activations to [256, 4096], narrows them to the shorter float format, and runs a grid of 50
  steps; step t multiplies the 256 × 4096 activations with rows 640·t … 640·t + 639 of W, in four column stretches of
  1024 accumulated from zero, and writes columns 640·t … 640·t + 639 of the [256, 32000] result, which is then reshaped
  to [8, 32, 32000]. The reference flattens, contracts the two arrays' last axes in one `dot_general`, and reshapes.
  At the ideal values a change of float format is the identity and both matrix products are plain sums, so both
  programs compute out[r, n] = Σ_{k < 4096} x[r, k] · W[n, k] (`Cert.RowDots.rowDots`) between the same two reshapes;
  the only law used is that a sum of 4096 terms is the running total of its four stretches (associativity of +, 0 + s
  = s), so the precondition is never opened.

  The three frames: the two kernel programs' are their grid runs with the arguments ending as launched; the
  reference's is its run with the result dropped. The idealization rewrote nothing, so the kernel's idealized program
  is its own text read at the ideal values.
-/
import proofs.«411516_j44598940402132_3_alg».proof.Defs
import proofs.«411516_j44598940402132_3_alg».proof.Proof.Gen.Kernel
import proofs.«411516_j44598940402132_3_alg».proof.Proof.Gen.Kernel.Skeleton
import proofs.«411516_j44598940402132_3_alg».proof.Proof.Gen.Kernel.Launch
import proofs.«411516_j44598940402132_3_alg».proof.Proof.Gen.Kernel.Points
import proofs.«411516_j44598940402132_3_alg».proof.Proof.Gen.Kernel.Frame
import proofs.«411516_j44598940402132_3_alg».proof.Proof.Gen.KernelIdeal
import proofs.«411516_j44598940402132_3_alg».proof.Proof.Gen.KernelIdeal.Skeleton
import proofs.«411516_j44598940402132_3_alg».proof.Proof.Gen.KernelIdeal.Launch
import proofs.«411516_j44598940402132_3_alg».proof.Proof.Gen.KernelIdeal.Points
import proofs.«411516_j44598940402132_3_alg».proof.Proof.Gen.KernelIdeal.Frame
import proofs.«411516_j44598940402132_3_alg».proof.Proof.Gen.ReferenceIdeal
import proofs.«411516_j44598940402132_3_alg».proof.Proof.Gen.Pre_finite_inputs
import proofs.«411516_j44598940402132_3_alg».proof.Proof.Gen.ReferenceIdeal.Run
import proofs.«411516_j44598940402132_3_alg».proof.Proof.Gen.ReferenceIdeal.Read
import proofs.«411516_j44598940402132_3_alg».proof.Proof.KernelRun
import proofs.«411516_j44598940402132_3_alg».proof.Proof.ReferenceValue
import Idealize.ShloMosaic.Adequacy
import Idealize.ShloMosaic.Init

noncomputable section

namespace Cert.Proof

open Idealize.ShloMosaic Idealize.SL.Sem

/-- The word-level kernel runs, and its arguments end as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs, and its arguments end as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result buffer at `result` of the arguments — all row-by-row dot products between the
    two reshapes —, from memories that agree on the arguments. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
